-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S2048x200 : Shape := ⟨2, ![2048, 200]⟩
abbrev S_ : Shape := ⟨0, ![]⟩

class Facts : Prop where
  bcast_S_S2048x200 : S_.BroadcastsInDim S2048x200 (![] : Fin 0 → Fin S2048x200.rank)
  reducesTo_S2048x200_S_d0_1 : S2048x200.ReducesTo [0, 1] S_
  h_S_ : 0 < S_.numel

variable [Facts]

def fn {F : FTy → Type} [FloatOps F] (main_arg0 : IVec S2048x200 32) : IVec S_ 1 :=
  let main_c : IVec S_ 32 := constantI S_ 32 0#32
  let main_v0 : IVec S2048x200 32 := broadcastInDim S2048x200 ![] bcast_S_S2048x200 main_c
  let main_v1 : IVec S2048x200 1 := cmpi .sge main_arg0 main_v0
  let main_c_0 : IVec S_ 1 := constantI S_ 1 1#1
  let main_v2 : IVec S_ 1 := (fun x v => Host.reduce IntOp.andi x v reducesTo_S2048x200_S_d0_1 h_S_) main_v1 main_c_0
  main_v2
-- ==== Kernel.lean ====
abbrev S2048x200 : Shape := ⟨2, ![2048, 200]⟩
abbrev S2048x250x200 : Shape := ⟨3, ![2048, 250, 200]⟩
abbrev S32x200 : Shape := ⟨2, ![32, 200]⟩
abbrev S32x250x200 : Shape := ⟨3, ![32, 250, 200]⟩
abbrev S1x1x250 : Shape := ⟨3, ![1, 1, 250]⟩
abbrev S1x1x200 : Shape := ⟨3, ![1, 1, 200]⟩
abbrev S32x200x1 : Shape := ⟨3, ![32, 200, 1]⟩
abbrev S32x200x250 : Shape := ⟨3, ![32, 200, 250]⟩
abbrev S32x200x200 : Shape := ⟨3, ![32, 200, 200]⟩
abbrev S2048x50000 : Shape := ⟨2, ![2048, 50000]⟩

abbrev nBuf : Space → Nat
  | .hbm => 3
  | .vmem => 4
  | .smem => 0
  | _ => 0

abbrev bufTy : (tb : Table) → Fin (tcTables nBuf tb) → BufTy
  | .hbm, ⟨0, _⟩ => ⟨S2048x200, .i32⟩
  | .hbm, ⟨1, _⟩ => ⟨S2048x250x200, .f32⟩
  | .hbm, ⟨2, _⟩ => ⟨S2048x50000, .f32⟩
  | .local _ .vmem, ⟨0, _⟩ => ⟨S32x200, .i32⟩
  | .local _ .vmem, ⟨1, _⟩ => ⟨S32x200, .i32⟩
  | .local _ .vmem, ⟨2, _⟩ => ⟨S32x250x200, .f32⟩
  | .local _ .vmem, ⟨3, _⟩ => ⟨S32x250x200, .f32⟩
  | _, _ => ⟨S2048x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x250x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S32x200_S32x200_0_0 : ∀ a, (![0, 0] : Fin 2 → Nat) a + S32x200.size a ≤ S32x200.size a
  h_S32x200 : 0 < S32x200.numel
  natLt_1_32 : 1 < 32
  iota_S1x1x250_d2_w32 : S1x1x250.Iotas .tc 32 [2]
  iota_S1x1x200_d2_w32 : S1x1x200.Iotas .tc 32 [2]
  shapeCasts_S32x200_S32x200x1 : S32x200.ShapeCasts S32x200x1
  broadcasts_S32x200x1_S32x200x250 : S32x200x1.Broadcasts S32x200x250
  broadcasts_S1x1x250_S32x200x250 : S1x1x250.Broadcasts S32x200x250
  bitsLt_bf16_f32 : FTy.bits .bf16 < FTy.bits .f32
  broadcasts_S32x200x1_S32x200x200 : S32x200x1.Broadcasts S32x200x200
  broadcasts_S1x1x200_S32x200x200 : S1x1x200.Broadcasts S32x200x200
  inb_S32x250x200_S32x250x200_0_0_0 : ∀ a, (![0, 0, 0] : Fin 3 → Nat) a + S32x250x200.size a ≤ S32x250x200.size a
  h_S32x250x200 : 0 < S32x250x200.numel
  shapeCasts_S2048x250x200_S2048x50000 : S2048x250x200.ShapeCasts S2048x50000
  dot_S32x200x250_S32x200x200_S32x250x200_1_1_2_2_0_0_wf : DotDims.WF S32x200x250 S32x200x200 S32x250x200 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x200.size a ≤ S2048x200.size a
  hwx0_0 : ∀ i : grid0.Coords, EltTy.bits .i32 = 32 ∨ (Rect.block (s := S2048x200) S32x200.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x250x200.size a ≤ S2048x250x200.size a
  hwx0_1 : ∀ i : grid0.Coords, EltTy.bits .f32 = 32 ∨ (Rect.block (s := S2048x250x200) S32x250x200.size (cc0_transform_1 i) (hinb0_1 i)).WholeWords (EltTy.packing .f32)

variable [Facts₀]

def dot_S32x200x250_S32x200x200_S32x250x200_1_1_2_2_0_0 : DotDims S32x200x250 S32x200x200 S32x250x200 where
  lhsContracting := [1]
  rhsContracting := [1]
  lhsNonContracting := [2]
  rhsNonContracting := [2]
  lhsBatch := [0]
  rhsBatch := [0]
  wf := dot_S32x200x250_S32x200x200_S32x250x200_1_1_2_2_0_0_wf

abbrev win0_0 : Pipeline.Window sig grid0 :=
  Pipeline.Window.ofSpec (Memref.whole main_arg0) S32x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x250x200.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x200 : Shape := ⟨2, ![2048, 200]⟩
abbrev S2048 : Shape := ⟨1, ![2048]⟩
abbrev S2048x1 : Shape := ⟨2, ![2048, 1]⟩
abbrev S_ : Shape := ⟨0, ![]⟩
abbrev S2048x50000 : Shape := ⟨2, ![2048, 50000]⟩
abbrev S2048x200x1 : Shape := ⟨3, ![2048, 200, 1]⟩
abbrev S2048x200x2 : Shape := ⟨3, ![2048, 200, 2]⟩

abbrev nBuf : Space → Nat
  | .hbm => 26
  | .vmem => 0
  | .smem => 0
  | _ => 0

abbrev bufTy : (tb : Table) → Fin (tcTables nBuf tb) → BufTy
  | .hbm, ⟨0, _⟩ => ⟨S2048x200, .i32⟩
  | .hbm, ⟨1, _⟩ => ⟨S2048, .i32⟩
  | .hbm, ⟨2, _⟩ => ⟨S2048x1, .i32⟩
  | .hbm, ⟨3, _⟩ => ⟨S2048x200, .i32⟩
  | .hbm, ⟨4, _⟩ => ⟨S_, .f32⟩
  | .hbm, ⟨5, _⟩ => ⟨S2048x50000, .f32⟩
  | .hbm, ⟨6, _⟩ => ⟨S_, .i32⟩
  | .hbm, ⟨7, _⟩ => ⟨S2048x200, .i32⟩
  | .hbm, ⟨8, _⟩ => ⟨S2048x200, .i1⟩
  | .hbm, ⟨9, _⟩ => ⟨S_, .i32⟩
  | .hbm, ⟨10, _⟩ => ⟨S2048x200, .i32⟩
  | .hbm, ⟨11, _⟩ => ⟨S2048x200, .i32⟩
  | .hbm, ⟨12, _⟩ => ⟨S2048x200, .i32⟩
  | .hbm, ⟨13, _⟩ => ⟨S_, .i32⟩
  | .hbm, ⟨14, _⟩ => ⟨S2048x200, .i32⟩
  | .hbm, ⟨15, _⟩ => ⟨S2048x200, .i1⟩
  | .hbm, ⟨16, _⟩ => ⟨S_, .i32⟩
  | .hbm, ⟨17, _⟩ => ⟨S2048x200, .i32⟩
  | .hbm, ⟨18, _⟩ => ⟨S2048x200, .i32⟩
  | .hbm, ⟨19, _⟩ => ⟨S2048x200, .i32⟩
  | .hbm, ⟨20, _⟩ => ⟨S2048x200x1, .i32⟩
  | .hbm, ⟨21, _⟩ => ⟨S2048x200x1, .i32⟩
  | .hbm, ⟨22, _⟩ => ⟨S2048x200x2, .i32⟩
  | .hbm, ⟨23, _⟩ => ⟨S_, .f32⟩
  | .hbm, ⟨24, _⟩ => ⟨S2048x200, .f32⟩
  | .hbm, ⟨25, _⟩ => ⟨S2048x50000, .f32⟩
  | _, _ => ⟨S2048x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S2048_S2048x1_0 : S2048.BroadcastsInDim S2048x1 (![0] : Fin 1 → Fin S2048x1.rank)
  bcast_S2048x1_S2048x200_0_1 : S2048x1.BroadcastsInDim S2048x200 (![0, 1] : Fin 2 → Fin S2048x200.rank)
  bcast_S_S2048x50000 : S_.BroadcastsInDim S2048x50000 (![] : Fin 0 → Fin S2048x50000.rank)
  bcast_S_S2048x200 : S_.BroadcastsInDim S2048x200 (![] : Fin 0 → Fin S2048x200.rank)
  bcast_S2048x200_S2048x200x1_0_1 : S2048x200.BroadcastsInDim S2048x200x1 (![0, 1] : Fin 2 → Fin S2048x200x1.rank)
  concatenates_S2048x200x1_S2048x200x1_S2048x200x2_d2 : Shape.Concatenates [S2048x200x1, S2048x200x1] S2048x200x2 2
  scatter_S2048x50000_S2048x200x2_S2048x200_n_01_01_2_wf : ScatterDims.WF S2048x50000 S2048x200x2 S2048x200 [] [0, 1] [0, 1] 2

variable [Facts₀]

def scatter_S2048x50000_S2048x200x2_S2048x200_n_01_01_2 : ScatterDims S2048x50000 S2048x200x2 S2048x200 where
  updateWindowDims := []
  insertedWindowDims := [0, 1]
  scatterDimsToOperandDims := [0, 1]
  indexVectorDim := 2
  wf := scatter_S2048x50000_S2048x200x2_S2048x200_n_01_01_2_wf

class Facts : Prop extends Facts₀ where

variable [Facts]
-- ==== Proof.Domain.lean ====
/-
  What the precondition says of the ids.

  The precondition compares every id with zero, "at least", and takes the conjunction of all the answers, starting
  from true. The conjunction is true, so every answer is: each id, read as a signed integer, is at least zero.
-/
import proofs.«417147_j16458314678493_3_alg».proof.Pre_any_inputs
import proofs.«417147_j16458314678493_3_alg».proof.Proof.Gen.Pre_any_inputs
import Idealize.ShloMosaic.PureOps.Ideal
import Idealize.ShloMosaic.Lib.ReduceAll
import Idealize.ShloMosaic.Lib.ValueIdx

namespace Cert.Hist

open Idealize.ShloMosaic Idealize.ShloMosaic.ValueIdx

/-- Under the precondition every id is nonnegative. -/
theorem nonneg_of_pre (x : IVec Cert.Pre_any_inputs.S2048x200 32)
    (h : Cert.Pre_any_inputs.fn (F := Ideal) x = fun _ => 1#1) (i : Cert.Pre_any_inputs.S2048x200.Idx) :
    0 ≤ (x i).toInt := by
  have h0 := congrFun h ix0
  dsimp only [Cert.Pre_any_inputs.fn] at h0
  haveI : Subsingleton Cert.Pre_any_inputs.S_.Idx := ⟨fun a b => funext fun d => d.elim0⟩
  have hi := Host.reduce_andi_all _ _ _ _ ix0 h0 i
  have hi' : BitVec.ofBool ((0#32 : BitVec 32).sle (x i)) = 1#1 := hi
  have hb : ((0#32 : BitVec 32).sle (x i)) = true := by
    cases hs : ((0#32 : BitVec 32).sle (x i)) with
    | true => rfl
    | false => rw [hs] at hi'; exact absurd hi' (by decide)
  have hle := BitVec.sle_iff_toInt_le.1 hb
  simpa using hle

end Cert.Hist
-- ==== Proof.LibWordDiv.lean ====
/-
  Integer floor division, remainder, clipping at zero and the negative-index wrap, on 32-bit words that are
  nonnegative as signed integers.

  A word below 2 ^ 31 has its sign bit clear, so read as a signed integer it is its natural number. For such a
  dividend n and a divisor d with 0 < d < 2 ^ 31 the signed division is not at a corner (d is neither 0 nor -1), and
  the quotient rounded toward zero and the remainder with the dividend's sign are the unsigned n / d and n % d.
  Floor division corrects the truncated quotient by one only when the signs of n and d differ and the remainder is
  not zero: the signs differ only for n = 0, where the remainder is zero, so nothing is corrected. The floored
  remainder adds d back only when the remainder and d have different signs: both are nonnegative. The maximum with
  zero, and a select on "n is negative", leave a nonnegative n alone.
-/
import Idealize.ShloMosaic.PureOps.ShapeOps
import Idealize.ShloMosaic.Lib.ValueIdx

namespace Cert.LibWordDiv

open Idealize.ShloMosaic Idealize.ShloMosaic.ValueIdx

/-! ## Nonnegative words -/

/-- A word below 2 ^ 31 has its sign bit clear. -/
theorem msb_false {x : BitVec 32} (h : x.toNat < 2 ^ 31) : x.msb = false := by
  rw [BitVec.msb_eq_decide]
  exact decide_eq_false (by omega)

/-- A positive divisor below 2 ^ 31 is neither 0 nor -1: the signed division is not at its corner. -/
theorem not_corner (n : BitVec 32) {d : BitVec 32} (hd0 : 0 < d.toNat) (hd : d.toNat < 2 ^ 31) :
    ¬ IntOp.SDivCorner n d := by
  rintro (h | ⟨-, h⟩)
  · rw [h] at hd0; exact absurd hd0 (by decide)
  · rw [h] at hd; exact absurd hd (by decide)

/-- The signed quotient of nonnegative words is the unsigned one. -/
theorem divsi_host {n d : BitVec 32} (hn : n.toNat < 2 ^ 31) (hd0 : 0 < d.toNat) (hd : d.toNat < 2 ^ 31) :
    IntOp.divsi .host n d = n / d := by
  unfold IntOp.divsi
  rw [if_neg (not_corner n hd0 hd), BitVec.sdiv_eq, msb_false hn, msb_false hd]
  rfl

/-- The signed remainder of nonnegative words is the unsigned one. -/
theorem remsi_host {n d : BitVec 32} (hn : n.toNat < 2 ^ 31) (hd0 : 0 < d.toNat) (hd : d.toNat < 2 ^ 31) :
    IntOp.remsi .host n d = n % d := by
  unfold IntOp.remsi
  rw [if_neg (not_corner n hd0 hd), BitVec.srem_eq, msb_false hn, msb_false hd]

/-- The sign word of a positive word below 2 ^ 31 is 1. -/
theorem sign_pos {x : BitVec 32} (h0 : 0 < x.toNat) (h : x.toNat < 2 ^ 31) :
    (if x = 0 then (0 : BitVec 32) else if x.msb then -1 else 1) = 1 := by
  have hx : x ≠ 0 := by rintro rfl; exact absurd h0 (by decide)
  rw [if_neg hx, msb_false h]
  rfl

/-- The unsigned quotient as a word is the word of the quotient of the natural numbers. -/
theorem ofNat_div (n d : BitVec 32) : BitVec.ofNat 32 (n.toNat / d.toNat) = n / d := by
  apply BitVec.eq_of_toNat_eq
  rw [BitVec.toNat_ofNat, BitVec.toNat_udiv]
  exact Nat.mod_eq_of_lt (lt_of_le_of_lt (Nat.div_le_self _ _) n.isLt)

/-- The unsigned remainder as a word is the word of the remainder of the natural numbers. -/
theorem ofNat_mod (n d : BitVec 32) : BitVec.ofNat 32 (n.toNat % d.toNat) = n % d := by
  apply BitVec.eq_of_toNat_eq
  rw [BitVec.toNat_ofNat, BitVec.toNat_umod]
  exact Nat.mod_eq_of_lt (lt_of_le_of_lt (Nat.mod_le _ _) n.isLt)

/-! ## Floor division -/

/-- FLOOR DIVISION of a nonnegative word by a positive one: the truncated quotient, corrected by one when the signs
    differ and the remainder is not zero, is the word of n / d. -/
theorem floor_divide_word (n d : BitVec 32) (hn : n.toNat < 2 ^ 31) (hd0 : 0 < d.toNat) (hd : d.toNat < 2 ^ 31) :
    Scalar.select
        (IntOp.andi
          (IntOp.cmpi .ne (if n = 0 then (0 : BitVec 32) else if n.msb then -1 else 1)
            (if d = 0 then (0 : BitVec 32) else if d.msb then -1 else 1))
          (IntOp.cmpi .ne (IntOp.remsi .host n d) 0#32))
        (IntOp.subi (IntOp.divsi .host n d) 1#32) (IntOp.divsi .host n d)
      = BitVec.ofNat 32 (n.toNat / d.toNat) := by
  have hc : IntOp.andi
      (IntOp.cmpi .ne (if n = 0 then (0 : BitVec 32) else if n.msb then -1 else 1)
        (if d = 0 then (0 : BitVec 32) else if d.msb then -1 else 1))
      (IntOp.cmpi .ne (IntOp.remsi .host n d) 0#32) = 0#1 := by
    rw [sign_pos hd0 hd, remsi_host hn hd0 hd]
    by_cases h0 : n = 0
    · subst h0
      simp [IntOp.andi, IntOp.cmpi]
    · have hpos : 0 < n.toNat := by
        rcases Nat.eq_zero_or_pos n.toNat with hz | hp
        · exact absurd (BitVec.eq_of_toNat_eq (by simpa using hz)) h0
        · exact hp
      rw [sign_pos hpos hn]
      simp [IntOp.andi, IntOp.cmpi]
  rw [hc, select_zero, divsi_host hn hd0 hd, ofNat_div]

theorem floor_divide_word_udiv (n d : BitVec 32) (hn : n.toNat < 2 ^ 31) (hd0 : 0 < d.toNat) (hd : d.toNat < 2 ^ 31) :
    Scalar.select
        (IntOp.andi
          (IntOp.cmpi .ne (if n = 0 then (0 : BitVec 32) else if n.msb then -1 else 1)
            (if d = 0 then (0 : BitVec 32) else if d.msb then -1 else 1))
          (IntOp.cmpi .ne (IntOp.remsi .host n d) 0#32))
        (IntOp.subi (IntOp.divsi .host n d) 1#32) (IntOp.divsi .host n d)
      = n / d := by
  rw [floor_divide_word n d hn hd0 hd, ofNat_div]

/-- … and as a natural number it is n / d. -/
theorem floor_divide_word_toNat (n d : BitVec 32) (hn : n.toNat < 2 ^ 31) (hd0 : 0 < d.toNat) (hd : d.toNat < 2 ^ 31) :
    (Scalar.select
        (IntOp.andi
          (IntOp.cmpi .ne (if n = 0 then (0 : BitVec 32) else if n.msb then -1 else 1)
            (if d = 0 then (0 : BitVec 32) else if d.msb then -1 else 1))
          (IntOp.cmpi .ne (IntOp.remsi .host n d) 0#32))
        (IntOp.subi (IntOp.divsi .host n d) 1#32) (IntOp.divsi .host n d)).toNat
      = n.toNat / d.toNat := by
  rw [floor_divide_word_udiv n d hn hd0 hd, BitVec.toNat_udiv]

/-! ## The floored remainder -/

/-- A divisor replaced by 1 when it is 0 is itself when it is positive. -/
theorem where_nonzero {d : BitVec 32} (hd0 : 0 < d.toNat) : Scalar.select (IntOp.cmpi .eq d 0#32) 1#32 d = d := by
  have hx : d ≠ 0#32 := by rintro rfl; exact absurd hd0 (by decide)
  have h : IntOp.cmpi .eq d 0#32 = 0#1 := by
    show BitVec.ofBool (d == 0#32) = 0#1
    rw [beq_eq_false_iff_ne.2 hx]
    rfl
  rw [h, select_zero]

/-- A word below 2 ^ 31 is not below zero as a signed integer. -/
theorem slt_zero_of_nonneg {x : BitVec 32} (h : x.toNat < 2 ^ 31) : IntOp.cmpi .slt x 0#32 = 0#1 := by
  show BitVec.ofBool (x.slt 0#32) = 0#1
  rw [BitVec.slt_zero_eq_msb, msb_false h]
  rfl

/-- THE FLOORED REMAINDER of a nonnegative word by a positive one: the truncated remainder, with the divisor added
    back when their signs differ and it is not zero, is the word of n % d. -/
theorem remainder_word (n d : BitVec 32) (hn : n.toNat < 2 ^ 31) (hd0 : 0 < d.toNat) (hd : d.toNat < 2 ^ 31) :
    Scalar.select
        (IntOp.andi
          (IntOp.cmpi .ne
            (IntOp.cmpi .slt (IntOp.remsi .host n (Scalar.select (IntOp.cmpi .eq d 0#32) 1#32 d)) 0#32)
            (IntOp.cmpi .slt (Scalar.select (IntOp.cmpi .eq d 0#32) 1#32 d) 0#32))
          (IntOp.cmpi .ne (IntOp.remsi .host n (Scalar.select (IntOp.cmpi .eq d 0#32) 1#32 d)) 0#32))
        (IntOp.addi (IntOp.remsi .host n (Scalar.select (IntOp.cmpi .eq d 0#32) 1#32 d))
          (Scalar.select (IntOp.cmpi .eq d 0#32) 1#32 d))
        (IntOp.remsi .host n (Scalar.select (IntOp.cmpi .eq d 0#32) 1#32 d))
      = BitVec.ofNat 32 (n.toNat % d.toNat) := by
  rw [where_nonzero hd0, remsi_host hn hd0 hd]
  have hr : (n % d).toNat < 2 ^ 31 := by
    rw [BitVec.toNat_umod]; exact lt_trans (Nat.mod_lt _ hd0) hd
  rw [slt_zero_of_nonneg hr, slt_zero_of_nonneg hd]
  have hc : IntOp.andi (IntOp.cmpi .ne 0#1 0#1) (IntOp.cmpi .ne (n % d) 0#32) = 0#1 := by
    simp [IntOp.andi, IntOp.cmpi]
  rw [hc, select_zero, ofNat_mod]

/-- … and as a natural number it is n % d. -/
theorem remainder_word_toNat (n d : BitVec 32) (hn : n.toNat < 2 ^ 31) (hd0 : 0 < d.toNat) (hd : d.toNat < 2 ^ 31) :
    (Scalar.select
        (IntOp.andi
          (IntOp.cmpi .ne
            (IntOp.cmpi .slt (IntOp.remsi .host n (Scalar.select (IntOp.cmpi .eq d 0#32) 1#32 d)) 0#32)
            (IntOp.cmpi .slt (Scalar.select (IntOp.cmpi .eq d 0#32) 1#32 d) 0#32))
          (IntOp.cmpi .ne (IntOp.remsi .host n (Scalar.select (IntOp.cmpi .eq d 0#32) 1#32 d)) 0#32))
        (IntOp.addi (IntOp.remsi .host n (Scalar.select (IntOp.cmpi .eq d 0#32) 1#32 d))
          (Scalar.select (IntOp.cmpi .eq d 0#32) 1#32 d))
        (IntOp.remsi .host n (Scalar.select (IntOp.cmpi .eq d 0#32) 1#32 d))).toNat
      = n.toNat % d.toNat := by
  rw [remainder_word n d hn hd0 hd, ofNat_mod, BitVec.toNat_umod]

/-! ## Clipping at zero, and the wrap of a negative index -/

/-- The signed maximum of zero and a nonnegative word is the word. -/
theorem clip_word {n : BitVec 32} (hn : n.toNat < 2 ^ 31) : IntOp.maxsi 0#32 n = n := by
  unfold IntOp.maxsi
  rw [BitVec.slt_zero_eq_msb, msb_false hn]
  rfl

/-- A select on "n is negative" leaves a nonnegative word alone, whatever is added on the other branch. -/
theorem wrap_word {n : BitVec 32} (k : BitVec 32) (hn : n.toNat < 2 ^ 31) :
    Scalar.select (IntOp.cmpi .slt n 0#32) (IntOp.addi n k) n = n := by
  rw [slt_zero_of_nonneg hn, select_zero]

/-! ## The divisors 256 and 1 -/

theorem floor_divide_word_256 (n : BitVec 32) (hn : n.toNat < 2 ^ 31) :
    Scalar.select
        (IntOp.andi
          (IntOp.cmpi .ne (if n = 0 then (0 : BitVec 32) else if n.msb then -1 else 1)
            (if 256#32 = 0 then (0 : BitVec 32) else if (256#32).msb then -1 else 1))
          (IntOp.cmpi .ne (IntOp.remsi .host n 256#32) 0#32))
        (IntOp.subi (IntOp.divsi .host n 256#32) 1#32) (IntOp.divsi .host n 256#32)
      = BitVec.ofNat 32 (n.toNat / 256) :=
  floor_divide_word n 256#32 hn (by decide) (by decide)

theorem floor_divide_word_256_toNat (n : BitVec 32) (hn : n.toNat < 2 ^ 31) :
    (Scalar.select
        (IntOp.andi
          (IntOp.cmpi .ne (if n = 0 then (0 : BitVec 32) else if n.msb then -1 else 1)
            (if 256#32 = 0 then (0 : BitVec 32) else if (256#32).msb then -1 else 1))
          (IntOp.cmpi .ne (IntOp.remsi .host n 256#32) 0#32))
        (IntOp.subi (IntOp.divsi .host n 256#32) 1#32) (IntOp.divsi .host n 256#32)).toNat
      = n.toNat / 256 :=
  floor_divide_word_toNat n 256#32 hn (by decide) (by decide)

theorem floor_divide_word_1 (n : BitVec 32) (hn : n.toNat < 2 ^ 31) :
    Scalar.select
        (IntOp.andi
          (IntOp.cmpi .ne (if n = 0 then (0 : BitVec 32) else if n.msb then -1 else 1)
            (if 1#32 = 0 then (0 : BitVec 32) else if (1#32).msb then -1 else 1))
          (IntOp.cmpi .ne (IntOp.remsi .host n 1#32) 0#32))
        (IntOp.subi (IntOp.divsi .host n 1#32) 1#32) (IntOp.divsi .host n 1#32)
      = n := by
  rw [floor_divide_word_udiv n 1#32 hn (by decide) (by decide)]
  apply BitVec.eq_of_toNat_eq
  rw [BitVec.toNat_udiv]
  exact Nat.div_one _

theorem remainder_word_256 (n : BitVec 32) (hn : n.toNat < 2 ^ 31) :
    Scalar.select
        (IntOp.andi
          (IntOp.cmpi .ne
            (IntOp.cmpi .slt (IntOp.remsi .host n (Scalar.select (IntOp.cmpi .eq 256#32 0#32) 1#32 256#32)) 0#32)
            (IntOp.cmpi .slt (Scalar.select (IntOp.cmpi .eq 256#32 0#32) 1#32 256#32) 0#32))
          (IntOp.cmpi .ne (IntOp.remsi .host n (Scalar.select (IntOp.cmpi .eq 256#32 0#32) 1#32 256#32)) 0#32))
        (IntOp.addi (IntOp.remsi .host n (Scalar.select (IntOp.cmpi .eq 256#32 0#32) 1#32 256#32))
          (Scalar.select (IntOp.cmpi .eq 256#32 0#32) 1#32 256#32))
        (IntOp.remsi .host n (Scalar.select (IntOp.cmpi .eq 256#32 0#32) 1#32 256#32))
      = BitVec.ofNat 32 (n.toNat % 256) :=
  remainder_word n 256#32 hn (by decide) (by decide)

theorem remainder_word_256_toNat (n : BitVec 32) (hn : n.toNat < 2 ^ 31) :
    (Scalar.select
        (IntOp.andi
          (IntOp.cmpi .ne
            (IntOp.cmpi .slt (IntOp.remsi .host n (Scalar.select (IntOp.cmpi .eq 256#32 0#32) 1#32 256#32)) 0#32)
            (IntOp.cmpi .slt (Scalar.select (IntOp.cmpi .eq 256#32 0#32) 1#32 256#32) 0#32))
          (IntOp.cmpi .ne (IntOp.remsi .host n (Scalar.select (IntOp.cmpi .eq 256#32 0#32) 1#32 256#32)) 0#32))
        (IntOp.addi (IntOp.remsi .host n (Scalar.select (IntOp.cmpi .eq 256#32 0#32) 1#32 256#32))
          (Scalar.select (IntOp.cmpi .eq 256#32 0#32) 1#32 256#32))
        (IntOp.remsi .host n (Scalar.select (IntOp.cmpi .eq 256#32 0#32) 1#32 256#32))).toNat
      = n.toNat % 256 :=
  remainder_word_toNat n 256#32 hn (by decide) (by decide)

/-! ## The same, on vectors at an index, the divisor a broadcast rank-0 tensor

The nesting below is the one the host program's functions are printed with: every rank-0 operand d, and every rank-0
constant, reaches the vector operations through its own broadcast. -/

section Vec
variable {t : Shape} (dims : Fin 0 → Fin t.rank) (hB : (⟨0, ![]⟩ : Shape).BroadcastsInDim t dims)

/-- A broadcast rank-0 tensor reads its one element everywhere. -/
theorem broadcastInDim_scalar {α : Type} (y : (⟨0, ![]⟩ : Shape).Idx → α) :
    broadcastInDim t dims hB y = fun _ => y ix0 := by
  funext j
  unfold broadcastInDim
  congr 1
  funext a
  exact a.elim0

/-- Floor division at an index. -/
theorem floor_divide_apply (x : IVec t 32) (d : IVec ⟨0, ![]⟩ 32) (i : t.Idx)
    (hn : (x i).toNat < 2 ^ 31) (hd0 : 0 < (d ix0).toNat) (hd : (d ix0).toNat < 2 ^ 31) :
    select
        (andi (cmpi .ne (signi x) (broadcastInDim t dims hB (signi d)))
          (cmpi .ne (Host.remsi x (broadcastInDim t dims hB d))
            (broadcastInDim t dims hB (constantI ⟨0, ![]⟩ 32 0#32))))
        (subi (Host.divsi x (broadcastInDim t dims hB d)) (broadcastInDim t dims hB (constantI ⟨0, ![]⟩ 32 1#32)))
        (Host.divsi x (broadcastInDim t dims hB d)) i
      = BitVec.ofNat 32 ((x i).toNat / (d ix0).toNat) := by
  simp only [broadcastInDim_scalar]
  exact floor_divide_word (x i) (d ix0) hn hd0 hd

/-- The floored remainder at an index. -/
theorem remainder_apply (x : IVec t 32) (d : IVec ⟨0, ![]⟩ 32) (i : t.Idx)
    (hn : (x i).toNat < 2 ^ 31) (hd0 : 0 < (d ix0).toNat) (hd : (d ix0).toNat < 2 ^ 31) :
    select
        (andi
          (cmpi .ne
            (cmpi .slt
              (Host.remsi x (broadcastInDim t dims hB
                (select (cmpi .eq d (constantI ⟨0, ![]⟩ 32 0#32)) (constantI ⟨0, ![]⟩ 32 1#32) d)))
              (broadcastInDim t dims hB (constantI ⟨0, ![]⟩ 32 0#32)))
            (broadcastInDim t dims hB
              (cmpi .slt (select (cmpi .eq d (constantI ⟨0, ![]⟩ 32 0#32)) (constantI ⟨0, ![]⟩ 32 1#32) d)
                (constantI ⟨0, ![]⟩ 32 0#32))))
          (cmpi .ne
            (Host.remsi x (broadcastInDim t dims hB
              (select (cmpi .eq d (constantI ⟨0, ![]⟩ 32 0#32)) (constantI ⟨0, ![]⟩ 32 1#32) d)))
            (broadcastInDim t dims hB (constantI ⟨0, ![]⟩ 32 0#32))))
        (addi
          (Host.remsi x (broadcastInDim t dims hB
            (select (cmpi .eq d (constantI ⟨0, ![]⟩ 32 0#32)) (constantI ⟨0, ![]⟩ 32 1#32) d)))
          (broadcastInDim t dims hB
            (select (cmpi .eq d (constantI ⟨0, ![]⟩ 32 0#32)) (constantI ⟨0, ![]⟩ 32 1#32) d)))
        (Host.remsi x (broadcastInDim t dims hB
          (select (cmpi .eq d (constantI ⟨0, ![]⟩ 32 0#32)) (constantI ⟨0, ![]⟩ 32 1#32) d))) i
      = BitVec.ofNat 32 ((x i).toNat % (d ix0).toNat) := by
  simp only [broadcastInDim_scalar]
  exact remainder_word (x i) (d ix0) hn hd0 hd

/-- Clipping at a broadcast zero, at an index. -/
theorem clip_apply (x : IVec t 32) (c : IVec ⟨0, ![]⟩ 32) (i : t.Idx) (hc : c ix0 = 0#32)
    (hn : (x i).toNat < 2 ^ 31) :
    maxsi (broadcastInDim t dims hB c) x i = x i := by
  simp only [broadcastInDim_scalar]
  show IntOp.maxsi (c ix0) (x i) = x i
  rw [hc]
  exact clip_word hn

/-- The wrap of a negative index at an index: a nonnegative element is left alone. -/
theorem wrap_apply (x : IVec t 32) (z k : IVec ⟨0, ![]⟩ 32) (i : t.Idx) (hz : z ix0 = 0#32)
    (hn : (x i).toNat < 2 ^ 31) :
    select (cmpi .slt x (broadcastInDim t dims hB z)) (addi x (broadcastInDim t dims hB k)) x i = x i := by
  simp only [broadcastInDim_scalar]
  show Scalar.select (IntOp.cmpi .slt (x i) (z ix0)) (IntOp.addi (x i) (k ix0)) (x i) = x i
  rw [hz]
  exact wrap_word (k ix0) hn

end Vec

/-! ## At the constant divisors 256 and 1 -/

section VecConst
variable {t : Shape} (dims : Fin 0 → Fin t.rank) (hB : (⟨0, ![]⟩ : Shape).BroadcastsInDim t dims)

/-- Floor division by the constant 256, at an index. -/
theorem floor_divide_apply_256 (x : IVec t 32) (i : t.Idx) (hn : (x i).toNat < 2 ^ 31) :
    select
        (andi (cmpi .ne (signi x) (broadcastInDim t dims hB (signi (constantI ⟨0, ![]⟩ 32 256#32))))
          (cmpi .ne (Host.remsi x (broadcastInDim t dims hB (constantI ⟨0, ![]⟩ 32 256#32)))
            (broadcastInDim t dims hB (constantI ⟨0, ![]⟩ 32 0#32))))
        (subi (Host.divsi x (broadcastInDim t dims hB (constantI ⟨0, ![]⟩ 32 256#32))) (broadcastInDim t dims hB (constantI ⟨0, ![]⟩ 32 1#32)))
        (Host.divsi x (broadcastInDim t dims hB (constantI ⟨0, ![]⟩ 32 256#32))) i
      = BitVec.ofNat 32 ((x i).toNat / 256) :=
  floor_divide_apply dims hB x (constantI ⟨0, ![]⟩ 32 256#32) i hn (by decide) (by decide)

theorem floor_divide_apply_256_toNat (x : IVec t 32) (i : t.Idx) (hn : (x i).toNat < 2 ^ 31) :
    (select
        (andi (cmpi .ne (signi x) (broadcastInDim t dims hB (signi (constantI ⟨0, ![]⟩ 32 256#32))))
          (cmpi .ne (Host.remsi x (broadcastInDim t dims hB (constantI ⟨0, ![]⟩ 32 256#32)))
            (broadcastInDim t dims hB (constantI ⟨0, ![]⟩ 32 0#32))))
        (subi (Host.divsi x (broadcastInDim t dims hB (constantI ⟨0, ![]⟩ 32 256#32))) (broadcastInDim t dims hB (constantI ⟨0, ![]⟩ 32 1#32)))
        (Host.divsi x (broadcastInDim t dims hB (constantI ⟨0, ![]⟩ 32 256#32))) i).toNat
      = (x i).toNat / 256 := by
  rw [floor_divide_apply_256 dims hB x i hn, BitVec.toNat_ofNat]
  exact Nat.mod_eq_of_lt (lt_of_le_of_lt (Nat.div_le_self _ _) (x i).isLt)

/-- Floor division by the constant 1, at an index: the element itself. -/
theorem floor_divide_apply_1 (x : IVec t 32) (i : t.Idx) (hn : (x i).toNat < 2 ^ 31) :
    select
        (andi (cmpi .ne (signi x) (broadcastInDim t dims hB (signi (constantI ⟨0, ![]⟩ 32 1#32))))
          (cmpi .ne (Host.remsi x (broadcastInDim t dims hB (constantI ⟨0, ![]⟩ 32 1#32)))
            (broadcastInDim t dims hB (constantI ⟨0, ![]⟩ 32 0#32))))
        (subi (Host.divsi x (broadcastInDim t dims hB (constantI ⟨0, ![]⟩ 32 1#32))) (broadcastInDim t dims hB (constantI ⟨0, ![]⟩ 32 1#32)))
        (Host.divsi x (broadcastInDim t dims hB (constantI ⟨0, ![]⟩ 32 1#32))) i
      = x i := by
  rw [floor_divide_apply dims hB x (constantI ⟨0, ![]⟩ 32 1#32) i hn (by decide) (by decide)]
  show BitVec.ofNat 32 ((x i).toNat / 1) = x i
  rw [Nat.div_one]
  exact BitVec.eq_of_toNat_eq (by rw [BitVec.toNat_ofNat]; exact Nat.mod_eq_of_lt (x i).isLt)

/-- The floored remainder by the constant 256, at an index. -/
theorem remainder_apply_256 (x : IVec t 32) (i : t.Idx) (hn : (x i).toNat < 2 ^ 31) :
    select
        (andi
          (cmpi .ne
            (cmpi .slt (Host.remsi x (broadcastInDim t dims hB (select (cmpi .eq (constantI ⟨0, ![]⟩ 32 256#32) (constantI ⟨0, ![]⟩ 32 0#32)) (constantI ⟨0, ![]⟩ 32 1#32) (constantI ⟨0, ![]⟩ 32 256#32))))
              (broadcastInDim t dims hB (constantI ⟨0, ![]⟩ 32 0#32)))
            (broadcastInDim t dims hB (cmpi .slt (select (cmpi .eq (constantI ⟨0, ![]⟩ 32 256#32) (constantI ⟨0, ![]⟩ 32 0#32)) (constantI ⟨0, ![]⟩ 32 1#32) (constantI ⟨0, ![]⟩ 32 256#32)) (constantI ⟨0, ![]⟩ 32 0#32))))
          (cmpi .ne (Host.remsi x (broadcastInDim t dims hB (select (cmpi .eq (constantI ⟨0, ![]⟩ 32 256#32) (constantI ⟨0, ![]⟩ 32 0#32)) (constantI ⟨0, ![]⟩ 32 1#32) (constantI ⟨0, ![]⟩ 32 256#32))))
            (broadcastInDim t dims hB (constantI ⟨0, ![]⟩ 32 0#32))))
        (addi (Host.remsi x (broadcastInDim t dims hB (select (cmpi .eq (constantI ⟨0, ![]⟩ 32 256#32) (constantI ⟨0, ![]⟩ 32 0#32)) (constantI ⟨0, ![]⟩ 32 1#32) (constantI ⟨0, ![]⟩ 32 256#32))))
          (broadcastInDim t dims hB (select (cmpi .eq (constantI ⟨0, ![]⟩ 32 256#32) (constantI ⟨0, ![]⟩ 32 0#32)) (constantI ⟨0, ![]⟩ 32 1#32) (constantI ⟨0, ![]⟩ 32 256#32))))
        (Host.remsi x (broadcastInDim t dims hB (select (cmpi .eq (constantI ⟨0, ![]⟩ 32 256#32) (constantI ⟨0, ![]⟩ 32 0#32)) (constantI ⟨0, ![]⟩ 32 1#32) (constantI ⟨0, ![]⟩ 32 256#32)))) i
      = BitVec.ofNat 32 ((x i).toNat % 256) :=
  remainder_apply dims hB x (constantI ⟨0, ![]⟩ 32 256#32) i hn (by decide) (by decide)

theorem remainder_apply_256_toNat (x : IVec t 32) (i : t.Idx) (hn : (x i).toNat < 2 ^ 31) :
    (select
        (andi
          (cmpi .ne
            (cmpi .slt (Host.remsi x (broadcastInDim t dims hB (select (cmpi .eq (constantI ⟨0, ![]⟩ 32 256#32) (constantI ⟨0, ![]⟩ 32 0#32)) (constantI ⟨0, ![]⟩ 32 1#32) (constantI ⟨0, ![]⟩ 32 256#32))))
              (broadcastInDim t dims hB (constantI ⟨0, ![]⟩ 32 0#32)))
            (broadcastInDim t dims hB (cmpi .slt (select (cmpi .eq (constantI ⟨0, ![]⟩ 32 256#32) (constantI ⟨0, ![]⟩ 32 0#32)) (constantI ⟨0, ![]⟩ 32 1#32) (constantI ⟨0, ![]⟩ 32 256#32)) (constantI ⟨0, ![]⟩ 32 0#32))))
          (cmpi .ne (Host.remsi x (broadcastInDim t dims hB (select (cmpi .eq (constantI ⟨0, ![]⟩ 32 256#32) (constantI ⟨0, ![]⟩ 32 0#32)) (constantI ⟨0, ![]⟩ 32 1#32) (constantI ⟨0, ![]⟩ 32 256#32))))
            (broadcastInDim t dims hB (constantI ⟨0, ![]⟩ 32 0#32))))
        (addi (Host.remsi x (broadcastInDim t dims hB (select (cmpi .eq (constantI ⟨0, ![]⟩ 32 256#32) (constantI ⟨0, ![]⟩ 32 0#32)) (constantI ⟨0, ![]⟩ 32 1#32) (constantI ⟨0, ![]⟩ 32 256#32))))
          (broadcastInDim t dims hB (select (cmpi .eq (constantI ⟨0, ![]⟩ 32 256#32) (constantI ⟨0, ![]⟩ 32 0#32)) (constantI ⟨0, ![]⟩ 32 1#32) (constantI ⟨0, ![]⟩ 32 256#32))))
        (Host.remsi x (broadcastInDim t dims hB (select (cmpi .eq (constantI ⟨0, ![]⟩ 32 256#32) (constantI ⟨0, ![]⟩ 32 0#32)) (constantI ⟨0, ![]⟩ 32 1#32) (constantI ⟨0, ![]⟩ 32 256#32)))) i).toNat
      = (x i).toNat % 256 := by
  rw [remainder_apply_256 dims hB x i hn, BitVec.toNat_ofNat]
  exact Nat.mod_eq_of_lt (lt_of_le_of_lt (Nat.mod_le _ _) (x i).isLt)

/-- Clipping at the broadcast constant 0, at an index. -/
theorem clip_apply_0 (x : IVec t 32) (i : t.Idx) (hn : (x i).toNat < 2 ^ 31) :
    maxsi (broadcastInDim t dims hB (constantI ⟨0, ![]⟩ 32 0#32)) x i = x i :=
  clip_apply dims hB x (constantI ⟨0, ![]⟩ 32 0#32) i rfl hn

/-- The wrap against the broadcast constant 0, at an index. -/
theorem wrap_apply_0 (k : BitVec 32) (x : IVec t 32) (i : t.Idx) (hn : (x i).toNat < 2 ^ 31) :
    select (cmpi .slt x (broadcastInDim t dims hB (constantI ⟨0, ![]⟩ 32 0#32))) (addi x (broadcastInDim t dims hB (constantI ⟨0, ![]⟩ 32 k))) x i = x i :=
  wrap_apply dims hB x (constantI ⟨0, ![]⟩ 32 0#32) (constantI ⟨0, ![]⟩ 32 k) i rfl hn

end VecConst

end Cert.LibWordDiv
-- ==== Proof.Words.lean ====
/-
  The two digits the kernel takes of a token id, and its one-hot entries, word by word.

  The kernel writes an id n as hi * 200 + lo: hi is the floor quotient of n by 200 — the quotient rounded toward
  zero, less one when the signs of n and 200 differ and the remainder is not zero — and lo is n - hi * 200. For an
  id that is nonnegative as a signed word the signs differ only at n = 0, where the remainder is zero, so hi is the
  unsigned quotient n / 200 and lo the unsigned remainder n % 200, both below 2 ^ 31. Hence hi = h and lo = r
  (for r below 200) exactly when n = h * 200 + r.

  A one-hot entry compares two integers as real numbers and widens the answer: it is 1 when the integers are
  equal and 0 when they are not, and a product of two entries is 1 exactly when both comparisons hold.
-/
import proofs.«417147_j16458314678493_3_alg».proof.Proof.LibWordDiv
import Idealize.ShloMosaic.PureOps.Ideal

namespace Cert.Hist

open Idealize.ShloMosaic Cert.LibWordDiv

/-! ## Nonnegative words -/

/-- A word that is nonnegative as a signed integer is below 2 ^ 31. -/
theorem toNat_lt_of_nonneg {n : BitVec 32} (h : 0 ≤ n.toInt) : n.toNat < 2 ^ 31 := by
  rw [BitVec.toInt_eq_toNat_cond] at h
  have := n.isLt
  split at h <;> omega

/-- A word below 2 ^ 31 read signed is its natural number. -/
theorem toInt_of_lt {n : BitVec 32} (h : n.toNat < 2 ^ 31) : n.toInt = (n.toNat : ℤ) := by
  rw [BitVec.toInt_eq_toNat_cond, if_pos (by omega)]

/-! ## The floor quotient by 200 and what is left -/

/-- The sign of a word as a word: "is above zero" less "is below zero", each widened. -/
def signWord (n : BitVec 32) : BitVec 32 :=
  IntOp.subi ((IntOp.cmpi .sgt n 0#32).setWidth 32) ((IntOp.cmpi .slt n 0#32).setWidth 32)

/-- The floor quotient by 200 as the vector unit computes it. -/
def floorDiv200 (n : BitVec 32) : BitVec 32 :=
  Scalar.select
    (IntOp.andi (IntOp.cmpi .ne (signWord n) (signWord 200#32))
      (IntOp.cmpi .ne (IntOp.remsi .vector n 200#32) 0#32))
    (IntOp.subi (IntOp.divsi .vector n 200#32) 1#32) (IntOp.divsi .vector n 200#32)

/-- What the quotient leaves: n - hi * 200. -/
def rest200 (n : BitVec 32) : BitVec 32 := IntOp.subi n (IntOp.muli (floorDiv200 n) 200#32)

theorem signWord_200 : signWord 200#32 = 1#32 := by decide

/-- The sign word of a positive word below 2 ^ 31 is 1. -/
theorem signWord_pos {n : BitVec 32} (h0 : n ≠ 0#32) (h : n.toNat < 2 ^ 31) : signWord n = 1#32 := by
  have hpos : 0 < n.toInt := by
    rw [toInt_of_lt h]
    have : n.toNat ≠ 0 := fun e => h0 (BitVec.eq_of_toNat_eq (by simpa using e))
    omega
  have h1 : IntOp.cmpi .sgt n 0#32 = 1#1 := by
    show BitVec.ofBool ((0#32).slt n) = 1#1
    rw [BitVec.slt_iff_toInt_lt.2 (by simpa using hpos)]
    rfl
  unfold signWord
  rw [h1, slt_zero_of_nonneg h]
  decide

/-- The signed quotient on the vector unit of a nonnegative word by 200 is the unsigned one. -/
theorem divsi_vector_200 {n : BitVec 32} (hn : n.toNat < 2 ^ 31) : IntOp.divsi .vector n 200#32 = n / 200#32 := by
  unfold IntOp.divsi
  rw [if_neg (not_corner n (d := 200#32) (by decide) (by decide)), BitVec.sdiv_eq, msb_false hn,
    msb_false (x := 200#32) (by decide)]
  rfl

/-- The signed remainder on the vector unit of a nonnegative word by 200 is the unsigned one. -/
theorem remsi_vector_200 {n : BitVec 32} (hn : n.toNat < 2 ^ 31) : IntOp.remsi .vector n 200#32 = n % 200#32 := by
  unfold IntOp.remsi
  rw [if_neg (not_corner n (d := 200#32) (by decide) (by decide)), BitVec.srem_eq, msb_false hn,
    msb_false (x := 200#32) (by decide)]

/-- THE FLOOR QUOTIENT of a nonnegative word is the unsigned quotient: nothing is corrected. -/
theorem floorDiv200_eq {n : BitVec 32} (hn : n.toNat < 2 ^ 31) : floorDiv200 n = n / 200#32 := by
  have hc : IntOp.andi (IntOp.cmpi .ne (signWord n) (signWord 200#32))
      (IntOp.cmpi .ne (IntOp.remsi .vector n 200#32) 0#32) = 0#1 := by
    by_cases h0 : n = 0#32
    · subst h0; decide
    · rw [signWord_pos h0 hn, signWord_200]
      simp [IntOp.andi, IntOp.cmpi]
  unfold floorDiv200
  rw [hc, ValueIdx.select_zero, divsi_vector_200 hn]

theorem floorDiv200_toNat {n : BitVec 32} (hn : n.toNat < 2 ^ 31) : (floorDiv200 n).toNat = n.toNat / 200 := by
  rw [floorDiv200_eq hn, BitVec.toNat_udiv]
  rfl

theorem rest200_toNat {n : BitVec 32} (hn : n.toNat < 2 ^ 31) : (rest200 n).toNat = n.toNat % 200 := by
  unfold rest200
  rw [floorDiv200_eq hn]
  show (n - n / 200#32 * 200#32).toNat = _
  rw [BitVec.toNat_sub, BitVec.toNat_mul, BitVec.toNat_udiv]
  have h200 : (200#32 : BitVec 32).toNat = 200 := rfl
  rw [h200]
  have := n.isLt
  omega

/-- THE DIGITS: for a nonnegative id n and r below 200, hi = h and lo = r exactly when n = h * 200 + r. -/
theorem digits_iff {n : BitVec 32} (hn : 0 ≤ n.toInt) (h r : ℕ) (hr : r < 200) :
    ((floorDiv200 n).toInt = (h : ℤ) ∧ (rest200 n).toInt = (r : ℤ)) ↔ n.toInt = ((h * 200 + r : ℕ) : ℤ) := by
  have hl := toNat_lt_of_nonneg hn
  have hq := floorDiv200_toNat hl
  have hm := rest200_toNat hl
  rw [toInt_of_lt (n := floorDiv200 n) (by omega), toInt_of_lt (n := rest200 n) (by omega), toInt_of_lt hl, hq, hm]
  omega

/-! ## One-hot entries -/

/-- A one-hot entry: two integers compared as real numbers, the answer widened to a word and read as a number. -/
noncomputable def hot (a b : BitVec 32) : EReal :=
  ((((Ideal.cmp .oeq ((a.toInt : ℝ) : EReal) ((b.toInt : ℝ) : EReal)).setWidth 32).toInt : ℝ) : EReal)

theorem hot_eq (a b : BitVec 32) : hot a b = if a.toInt = b.toInt then 1 else 0 := by
  unfold hot Ideal.cmp
  by_cases h : a.toInt = b.toInt
  · rw [if_pos h, h]
    simp
  · rw [if_neg h]
    have hne : ¬ (((a.toInt : ℝ) : EReal) = ((b.toInt : ℝ) : EReal)) := fun e =>
      h (by exact_mod_cast EReal.coe_eq_coe_iff.1 e)
    simp [hne]

/-- A product of two entries is 1 when both comparisons hold and 0 otherwise. -/
theorem hot_mul_hot (a b c d : BitVec 32) :
    hot a b * hot c d = if a.toInt = b.toInt ∧ c.toInt = d.toInt then 1 else 0 := by
  rw [hot_eq, hot_eq]
  by_cases h1 : a.toInt = b.toInt <;> by_cases h2 : c.toInt = d.toInt <;> simp [h1, h2]

end Cert.Hist
-- ==== Proof.OneHot.lean ====
/-
  The kernel body's value at one index.

  The body loads a [32, 200] block of token ids. From each id it takes the two digits hi and lo, turns each into a
  one-hot row — hi against the lanes 0 .. 249, lo against the lanes 0 .. 199 — and contracts the two one-hot
  tensors over the sequence axis: entry (b, h, r) of the result is the sum over the 200 positions l of
  [hi(b, l) = h] * [lo(b, l) = r].
-/
import proofs.«417147_j16458314678493_3_alg».proof.Proof.Gen.KernelIdeal.Skeleton
import proofs.«417147_j16458314678493_3_alg».proof.Proof.Words
import Idealize.ShloMosaic.Lib.ValueIdx
import Idealize.ShloMosaic.Lib.Pipeline.Value
import Idealize.ShloMosaic.PureOps.Ideal.Laws

noncomputable section

open scoped BigOperators

namespace Cert.Hist.Body

open Idealize.ShloMosaic Idealize.ShloMosaic.ValueIdx Cert.KernelIdeal Cert.KernelIdeal.Gen Cert.Hist

/-! ## The layout steps of a one-hot tensor, read at an index -/

section Layout
variable {α : Type}

/-- A [32, 200] array given a trailing unit axis and spread along a new last axis of 250 lanes reads, at
    (b, l, h), its element (b, l). -/
theorem spread250_apply (v : S32x200.Idx → α) (hc : S32x200.ShapeCasts S32x200x1) (hb : S32x200x1.Broadcasts S32x200x250)
    (b : Fin 32) (l : Fin 200) (h : Fin 250) :
    broadcastTo S32x200x250 (shapeCast S32x200x1 v hc) hb (ix3 b l h) = v (ix2 b l) := by
  refine (broadcastTo_apply _ hb (ix3 b l h) (ix3 b l (0 : Fin 1)) (fun a => ?_)).trans ?_
  · match a with
    | ⟨0, _⟩ => show b.val = if (32 : Nat) = 1 then 0 else b.val; rw [if_neg (by decide)]
    | ⟨1, _⟩ => show l.val = if (200 : Nat) = 1 then 0 else l.val; rw [if_neg (by decide)]
    | ⟨2, _⟩ => show 0 = if (1 : Nat) = 1 then 0 else h.val; rw [if_pos rfl]
  · refine shapeCast_apply v hc (ix3 b l (0 : Fin 1)) (ix2 b l) ?_
    rw [Shape.rowMajor_val_two, Shape.rowMajor_val_three]
    show b.val * 200 + l.val = (b.val * 200 + l.val) * 1 + 0
    omega

/-- The same with 200 lanes. -/
theorem spread200_apply (v : S32x200.Idx → α) (hc : S32x200.ShapeCasts S32x200x1) (hb : S32x200x1.Broadcasts S32x200x200)
    (b : Fin 32) (l : Fin 200) (r : Fin 200) :
    broadcastTo S32x200x200 (shapeCast S32x200x1 v hc) hb (ix3 b l r) = v (ix2 b l) := by
  refine (broadcastTo_apply _ hb (ix3 b l r) (ix3 b l (0 : Fin 1)) (fun a => ?_)).trans ?_
  · match a with
    | ⟨0, _⟩ => show b.val = if (32 : Nat) = 1 then 0 else b.val; rw [if_neg (by decide)]
    | ⟨1, _⟩ => show l.val = if (200 : Nat) = 1 then 0 else l.val; rw [if_neg (by decide)]
    | ⟨2, _⟩ => show 0 = if (1 : Nat) = 1 then 0 else r.val; rw [if_pos rfl]
  · refine shapeCast_apply v hc (ix3 b l (0 : Fin 1)) (ix2 b l) ?_
    rw [Shape.rowMajor_val_two, Shape.rowMajor_val_three]
    show b.val * 200 + l.val = (b.val * 200 + l.val) * 1 + 0
    omega

/-- A [1, 1, 250] row of lanes spread over the 32 × 200 positions reads, at (b, l, h), its lane h. -/
theorem lanes250_apply (w : S1x1x250.Idx → α) (hb : S1x1x250.Broadcasts S32x200x250)
    (b : Fin 32) (l : Fin 200) (h : Fin 250) :
    broadcastTo S32x200x250 w hb (ix3 b l h) = w (ix3 (0 : Fin 1) (0 : Fin 1) h) := by
  refine broadcastTo_apply _ hb (ix3 b l h) (ix3 (0 : Fin 1) (0 : Fin 1) h) (fun a => ?_)
  match a with
  | ⟨0, _⟩ => show 0 = if (1 : Nat) = 1 then 0 else b.val; rw [if_pos rfl]
  | ⟨1, _⟩ => show 0 = if (1 : Nat) = 1 then 0 else l.val; rw [if_pos rfl]
  | ⟨2, _⟩ => show h.val = if (250 : Nat) = 1 then 0 else h.val; rw [if_neg (by decide)]

/-- The same with 200 lanes. -/
theorem lanes200_apply (w : S1x1x200.Idx → α) (hb : S1x1x200.Broadcasts S32x200x200)
    (b : Fin 32) (l : Fin 200) (r : Fin 200) :
    broadcastTo S32x200x200 w hb (ix3 b l r) = w (ix3 (0 : Fin 1) (0 : Fin 1) r) := by
  refine broadcastTo_apply _ hb (ix3 b l r) (ix3 (0 : Fin 1) (0 : Fin 1) r) (fun a => ?_)
  match a with
  | ⟨0, _⟩ => show 0 = if (1 : Nat) = 1 then 0 else b.val; rw [if_pos rfl]
  | ⟨1, _⟩ => show 0 = if (1 : Nat) = 1 then 0 else l.val; rw [if_pos rfl]
  | ⟨2, _⟩ => show r.val = if (200 : Nat) = 1 then 0 else r.val; rw [if_neg (by decide)]

end Layout

/-! ## The digits and the one-hot entries -/

/-- The hi digit of the block's id at an index. -/
theorem hi_apply (x0 : Vec Ideal S32x200 .i32) (i : S32x200.Idx) : k0_pay2 (F := Ideal) x0 i = floorDiv200 (x0 i) := rfl

/-- The hi one-hot tensor at (b, l, h): the hi digit of id (b, l) compared with the lane number h. -/
theorem hi_hot_apply (x0 : Vec Ideal S32x200 .i32) (b : Fin 32) (l : Fin 200) (h : Fin 250) :
    k0_pay3 (F := Ideal) x0 (ix3 b l h) = hot (floorDiv200 (x0 (ix2 b l))) (BitVec.ofNat 32 h.val) := by
  unfold k0_pay3
  dsimp only
  simp only [truncf_apply, sitofp_apply, extui_apply, cmpf_apply]
  rw [spread250_apply, lanes250_apply]
  simp only [sitofp_apply]
  rw [iota_single_apply]
  rfl

/-- The lo one-hot tensor at (b, l, r): what the hi digit leaves of id (b, l) compared with the lane number r. -/
theorem lo_hot_apply (x0 : Vec Ideal S32x200 .i32) (b : Fin 32) (l : Fin 200) (r : Fin 200) :
    k0_pay4 (F := Ideal) x0 (ix3 b l r) = hot (rest200 (x0 (ix2 b l))) (BitVec.ofNat 32 r.val) := by
  unfold k0_pay4
  dsimp only
  simp only [truncf_apply, sitofp_apply, extui_apply, cmpf_apply]
  rw [spread200_apply, lanes200_apply]
  simp only [sitofp_apply]
  rw [iota_single_apply]
  rfl

/-! ## The contraction over the sequence axis -/

/-- The batched product's operand indices, axis by axis: the batch axis reads b, the contracted axis the
    position, the last axis the lane. -/
theorem lhs_axis0 (j : S32x250x200.Idx) (k : dot_S32x200x250_S32x200x200_S32x250x200_1_1_2_2_0_0.contr.Idx) :
    (dot_S32x200x250_S32x200x200_S32x250x200_1_1_2_2_0_0.lhsIdx j k 0).val = (j 0).val := by
  simp [DotDims.lhsIdx, dot_S32x200x250_S32x200x200_S32x250x200_1_1_2_2_0_0]
  rfl
theorem lhs_axis1 (j : S32x250x200.Idx) (k : dot_S32x200x250_S32x200x200_S32x250x200_1_1_2_2_0_0.contr.Idx) :
    (dot_S32x200x250_S32x200x200_S32x250x200_1_1_2_2_0_0.lhsIdx j k 1).val = (k ⟨0, by decide⟩).val :=
  dot_S32x200x250_S32x200x200_S32x250x200_1_1_2_2_0_0.lhsIdx_val_of_single rfl j k
theorem lhs_axis2 (j : S32x250x200.Idx) (k : dot_S32x200x250_S32x200x200_S32x250x200_1_1_2_2_0_0.contr.Idx) :
    (dot_S32x200x250_S32x200x200_S32x250x200_1_1_2_2_0_0.lhsIdx j k 2).val = (j 1).val := by
  simp [DotDims.lhsIdx, dot_S32x200x250_S32x200x200_S32x250x200_1_1_2_2_0_0]
  rfl
theorem rhs_axis0 (j : S32x250x200.Idx) (k : dot_S32x200x250_S32x200x200_S32x250x200_1_1_2_2_0_0.contr.Idx) :
    (dot_S32x200x250_S32x200x200_S32x250x200_1_1_2_2_0_0.rhsIdx j k 0).val = (j 0).val := by
  simp [DotDims.rhsIdx, dot_S32x200x250_S32x200x200_S32x250x200_1_1_2_2_0_0]
  rfl
theorem rhs_axis1 (j : S32x250x200.Idx) (k : dot_S32x200x250_S32x200x200_S32x250x200_1_1_2_2_0_0.contr.Idx) :
    (dot_S32x200x250_S32x200x200_S32x250x200_1_1_2_2_0_0.rhsIdx j k 1).val = (k ⟨0, by decide⟩).val :=
  dot_S32x200x250_S32x200x200_S32x250x200_1_1_2_2_0_0.rhsIdx_val_of_single rfl j k
theorem rhs_axis2 (j : S32x250x200.Idx) (k : dot_S32x200x250_S32x200x200_S32x250x200_1_1_2_2_0_0.contr.Idx) :
    (dot_S32x200x250_S32x200x200_S32x250x200_1_1_2_2_0_0.rhsIdx j k 2).val = (j 2).val := by
  simp [DotDims.rhsIdx, dot_S32x200x250_S32x200x200_S32x250x200_1_1_2_2_0_0]
  rfl

/-- THE BODY'S RESULT at (b, h, r): the sum over the positions l of the product of the two one-hot entries. -/
theorem hist_apply (x0 : Vec Ideal S32x200 .i32) (b : Fin 32) (h : Fin 250) (r : Fin 200) :
    k0_pay1 (F := Ideal) (k0_pay3 x0) (k0_pay4 x0) (constant S32x250x200 .f32 0x00000000#32) (ix3 b h r)
      = ∑ l : Fin 200, hot (floorDiv200 (x0 (ix2 b l))) (BitVec.ofNat 32 h.val)
          * hot (rest200 (x0 (ix2 b l))) (BitVec.ofNat 32 r.val) := by
  unfold k0_pay1
  refine (Ideal.matmul_constant_zero_apply dot_S32x200x250_S32x200x200_S32x250x200_1_1_2_2_0_0 none _ _ (ix3 b h r)).trans ?_
  rw [← Equiv.sum_comp (contrEquiv1 dot_S32x200x250_S32x200x200_S32x250x200_1_1_2_2_0_0 200 rfl rfl).symm]
  refine Finset.sum_congr rfl fun l _ => ?_
  have hk := contrEquiv1_symm_val dot_S32x200x250_S32x200x200_S32x250x200_1_1_2_2_0_0 200 rfl rfl l
  have el : dot_S32x200x250_S32x200x200_S32x250x200_1_1_2_2_0_0.lhsIdx (ix3 b h r)
      ((contrEquiv1 dot_S32x200x250_S32x200x200_S32x250x200_1_1_2_2_0_0 200 rfl rfl).symm l) = ix3 b l h := by
    funext a
    refine Fin.ext ?_
    match a with
    | ⟨0, _⟩ => exact lhs_axis0 _ _
    | ⟨1, _⟩ => exact (lhs_axis1 _ _).trans hk
    | ⟨2, _⟩ => exact lhs_axis2 _ _
  have er : dot_S32x200x250_S32x200x200_S32x250x200_1_1_2_2_0_0.rhsIdx (ix3 b h r)
      ((contrEquiv1 dot_S32x200x250_S32x200x200_S32x250x200_1_1_2_2_0_0 200 rfl rfl).symm l) = ix3 b l r := by
    funext a
    refine Fin.ext ?_
    match a with
    | ⟨0, _⟩ => exact rhs_axis0 _ _
    | ⟨1, _⟩ => exact (rhs_axis1 _ _).trans hk
    | ⟨2, _⟩ => exact rhs_axis2 _ _
  rw [el, er, hi_hot_apply, lo_hot_apply]

end Cert.Hist.Body

end
-- ==== Proof.Count.lean ====
/-
  The histogram both programs compute, and the law that joins the kernel's two digits to one id.

  For a [2048, 200] array x of token ids, entry (b, v) of the histogram is the number of positions l of row b
  whose id, read as a signed integer, is v; as an extended real it is the sum over l of 1 where x[b, l] = v and of
  0 elsewhere. The region of the kernel writes the same numbers as a [2048, 250, 200] array, entry (b, h, r)
  counting the ids equal to h * 200 + r.

  The law: for a nonnegative id n, a lane h below 250 and a lane r below 200, the product of the one-hot entry of
  the hi digit against h and of the lo digit against r is 1 exactly when n = h * 200 + r.
-/
import proofs.«417147_j16458314678493_3_alg».proof.Proof.Words
import Idealize.ShloMosaic.Lib.ValueIdx

noncomputable section

open scoped BigOperators

namespace Cert.Hist

open Idealize.ShloMosaic Idealize.ShloMosaic.ValueIdx

/-- The histogram of the rows of x over the vocabulary of 50000 ids. -/
def hist (x : (⟨2, ![2048, 200]⟩ : Shape).Idx → BitVec 32) : (⟨2, ![2048, 50000]⟩ : Shape).Idx → EReal :=
  fun i => ∑ l : Fin 200, if (x (ix2 (i 0) l)).toInt = ((i 1).val : ℤ) then 1 else 0

/-- The same counts laid out by the two digits of the id: entry (b, h, r) counts the ids equal to h * 200 + r. -/
def histDigits (x : (⟨2, ![2048, 200]⟩ : Shape).Idx → BitVec 32) : (⟨3, ![2048, 250, 200]⟩ : Shape).Idx → EReal :=
  fun i => ∑ l : Fin 200, if (x (ix2 (i 0) l)).toInt = (((i 1).val * 200 + (i 2).val : ℕ) : ℤ) then 1 else 0

/-- A small natural number as a word, read signed, is itself. -/
theorem toInt_ofNat_lt (a : ℕ) (ha : a < 2 ^ 31) : (BitVec.ofNat 32 a).toInt = (a : ℤ) := by
  have hm : (BitVec.ofNat 32 a).toNat = a := by
    rw [BitVec.toNat_ofNat]; exact Nat.mod_eq_of_lt (by omega)
  rw [toInt_of_lt (by omega), hm]

/-- THE LAW OF THE DIGITS: for a nonnegative id the two one-hot entries multiply to the indicator of
    n = h * 200 + r. -/
theorem hot_digits {n : BitVec 32} (hn : 0 ≤ n.toInt) (h : Fin 250) (r : Fin 200) :
    hot (floorDiv200 n) (BitVec.ofNat 32 h.val) * hot (rest200 n) (BitVec.ofNat 32 r.val)
      = if n.toInt = ((h.val * 200 + r.val : ℕ) : ℤ) then 1 else 0 := by
  rw [hot_mul_hot, toInt_ofNat_lt h.val (by have := h.isLt; omega), toInt_ofNat_lt r.val (by have := r.isLt; omega)]
  exact if_congr (digits_iff hn h.val r.val r.isLt) rfl rfl

end Cert.Hist

end
-- ==== Proof.Region.lean ====
/-
  The idealized kernel's result as one function of its argument.

  The region runs 64 grid points; point t loads rows 32 t .. 32 t + 31 of the ids and writes back rows
  32 t .. 32 t + 31 of a [2048, 250, 200] array, whole. By the body's value and the law of the digits, what point t
  writes is block t of the digit-wise histogram of the ids, when every id is nonnegative; the 64 blocks tile the
  array (row b is in the block of point b / 32), so after the region the array is that histogram. The host then
  reshapes [2048, 250, 200] to [2048, 50000]: column v reads the entry (v / 200, v % 200), which counts the ids equal
  to (v / 200) * 200 + v % 200 = v.
-/
import proofs.«417147_j16458314678493_3_alg».proof.Proof.Gen.KernelIdeal.Frame
import proofs.«417147_j16458314678493_3_alg».proof.Proof.OneHot
import proofs.«417147_j16458314678493_3_alg».proof.Proof.Count
import Idealize.ShloMosaic.Lib.Pipeline.Value
import Idealize.ShloMosaic.Lib.StableHlo.Run

set_option maxRecDepth 16384

noncomputable section

open scoped BigOperators

namespace Cert.Hist.Region

open Idealize.ShloMosaic Idealize.ShloMosaic.ValueIdx Idealize.ShloMosaic.TcCoe Idealize.SL.Sem
open Cert.KernelIdeal Cert.KernelIdeal.Gen Cert.Hist
open Idealize.ShloMosaic.Pipeline (Dat)

variable (m : (ℓ : Loc nD τ sig) → Buf (Elt Ideal) ℓ) (ρ : Dev nD → PrngReg)

/-! ## What one grid point writes -/

/-- The body's result on a block x0 that is rows 32 T .. 32 T + 31 of nonnegative ids X, at the block index y, is
    the digit-wise histogram of X at the array index i that y has in the array: i = (32 T + y 0, y 1, y 2). -/
theorem block_value (x0 : Vec Ideal S32x200 .i32) (X : S2048x200.Idx → BitVec 32) (T : ℕ)
    (hx0 : ∀ (b : Fin 32) (l : Fin 200) (B : Fin 2048), B.val = T * 32 + b.val → x0 (ix2 b l) = X (ix2 B l))
    (hX : ∀ i, 0 ≤ (X i).toInt) (y : S32x250x200.Idx) (i : S2048x250x200.Idx)
    (h0 : (i 0).val = T * 32 + (y 0).val) (h1 : (i 1).val = (y 1).val) (h2 : (i 2).val = (y 2).val) :
    k0_pay1 (F := Ideal) (k0_pay3 x0) (k0_pay4 x0) (constant S32x250x200 .f32 0x00000000#32) y = histDigits X i := by
  obtain ⟨b, h, r, rfl⟩ : ∃ (b : Fin 32) (h : Fin 250) (r : Fin 200), y = ix3 b h r := ⟨y 0, y 1, y 2, eq_ix3 y⟩
  rw [Body.hist_apply]
  unfold histDigits
  refine Finset.sum_congr rfl fun l _ => ?_
  rw [hx0 b l (i 0) h0, hot_digits (hX _), h1, h2]

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: point t reads block row t of the ids and writes block row t of the
    output, the other block coordinates zero. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- WHAT POINT t WRITES BACK is block t of the digit-wise histogram of the ids as the region finds them. -/
theorem flushed_eq (c : Dev nD) (hX : ∀ i, 0 ≤ (V (F := Ideal) m c main_arg0 i).toInt) (t : Fin cfg0.N) :
    (dats m 0 c).flushed 1 t
      = ((cfg0.win 1).blk t).view.read (Elt Ideal) (histDigits (V (F := Ideal) m c main_arg0)) := by
  show (cfg0.win 1).cut (grid0.coords t) ((dats m 0 c).after 1 t) = _
  rw [after0_1]
  unfold out0_1
  rw [View.canon_unit_zero hz3]
  simp only [View.ld_unit_zero (S := S32x200) hz2]
  obtain ⟨e0, e1, e2, e3, e4⟩ := idx_facts t
  funext j
  show k0_pay1 (F := Ideal) (k0_pay3 (iblk m c 0 t)) (k0_pay4 (iblk m c 0 t)) (constant S32x250x200 .f32 0x00000000#32) j
      = histDigits (V (F := Ideal) m c main_arg0) (((cfg0.win 1).blk t).view.emb j)
  refine block_value (iblk m c 0 t) (V (F := Ideal) m c main_arg0) t.val ?_ hX j (((cfg0.win 1).blk t).view.emb j) ?_ ?_ ?_
  · intro b l B hB
    show V (F := Ideal) m c main_arg0 (((cfg0.win 0).blk t).view.emb (ix2 b l)) = V (F := Ideal) m c main_arg0 (ix2 B l)
    refine congrArg _ (funext fun a => Fin.ext ?_)
    match a with
    | ⟨0, _⟩ => show win0_0.index t (0 : Fin 2) * 32 + 1 * b.val = B.val; omega
    | ⟨1, _⟩ => show win0_0.index t (1 : Fin 2) * 200 + 1 * l.val = l.val; omega
  · show win0_1.index t (0 : Fin 3) * 32 + 1 * (j 0).val = t.val * 32 + (j 0).val; omega
  · show win0_1.index t (1 : Fin 3) * 250 + 1 * (j 1).val = (j 1).val; omega
  · show win0_1.index t (2 : Fin 3) * 200 + 1 * (j 2).val = (j 2).val; omega

/-! ## The array after the region -/

/-- An index of the output array is in point t's block iff each coordinate is in the block's range on its axis. -/
theorem mem_blk (t : Fin cfg0.N) (i : S2048x250x200.Idx) :
    i ∈ ((cfg0.win 1).blk t).view.set ↔ ∀ a : Fin 3, win0_1.index t a * S32x250x200.size a ≤ (i a).val
      ∧ (i a).val < win0_1.index t a * S32x250x200.size a + S32x250x200.size a := by
  show i ∈ ((View.whole main_v0).slice (win0_1.rect t)).set ↔ _
  rw [View.set_slice_whole, Rect.mem_set_unit]
  exact Iff.rfl

/-- Every index of the output array is in the block of the point that owns its row: row b belongs to point b / 32. -/
theorem cover (i : S2048x250x200.Idx) :
    ∃ t : Fin cfg0.N, (cfg0.win 1).flush t = true ∧ i ∈ ((cfg0.win 1).blk t).view.set := by
  have hi0 : (i 0).val < 2048 := (i 0).isLt
  have hi1 : (i 1).val < 250 := (i 1).isLt
  have hi2 : (i 2).val < 200 := (i 2).isLt
  have hlt : (i 0).val / 32 < cfg0.N := by
    show _ < grid0.N
    rw [N_0]; omega
  refine ⟨⟨(i 0).val / 32, hlt⟩, flush0_1 _, ?_⟩
  obtain ⟨-, -, e2, e3, e4⟩ := idx_facts ⟨(i 0).val / 32, hlt⟩
  rw [mem_blk]
  intro a
  match a with
  | ⟨0, _⟩ =>
    show win0_1.index ⟨(i 0).val / 32, hlt⟩ (0 : Fin 3) * 32 ≤ (i 0).val
      ∧ (i 0).val < win0_1.index ⟨(i 0).val / 32, hlt⟩ (0 : Fin 3) * 32 + 32
    rw [e2]; show (i 0).val / 32 * 32 ≤ (i 0).val ∧ (i 0).val < (i 0).val / 32 * 32 + 32; omega
  | ⟨1, _⟩ =>
    show win0_1.index ⟨(i 0).val / 32, hlt⟩ (1 : Fin 3) * 250 ≤ (i 1).val
      ∧ (i 1).val < win0_1.index ⟨(i 0).val / 32, hlt⟩ (1 : Fin 3) * 250 + 250
    rw [e3]; omega
  | ⟨2, _⟩ =>
    show win0_1.index ⟨(i 0).val / 32, hlt⟩ (2 : Fin 3) * 200 ≤ (i 2).val
      ∧ (i 2).val < win0_1.index ⟨(i 0).val / 32, hlt⟩ (2 : Fin 3) * 200 + 200
    rw [e4]; omega

/-- THE ARRAY after the region is the digit-wise histogram of the ids. -/
theorem final (c : Dev nD) (hX : ∀ i, 0 ≤ (V (F := Ideal) m c main_arg0 i).toInt) :
    (dats m 0 c).arrAt 1 cfg0.N = histDigits (V (F := Ideal) m c main_arg0) :=
  (dats m 0 c).arrAt_eq_of_cover 1 (histDigits (V (F := Ideal) m c main_arg0)) (fun t _ => flushed_eq m c hX t) cover

/-! ## The reshape after the region -/

/-- Column v of the flattened array reads the digit-wise entry (v / 200, v % 200), which counts the ids equal to v. -/
theorem histDigits_flat (X : S2048x200.Idx → BitVec 32) (i : S2048x50000.Idx) (hq : (i 1).val / 200 < 250)
    (hr : (i 1).val % 200 < 200) :
    histDigits X (ix3 (i 0) ⟨(i 1).val / 200, hq⟩ ⟨(i 1).val % 200, hr⟩) = hist X i := by
  unfold histDigits hist
  refine Finset.sum_congr rfl fun l _ => ?_
  have e : (i 1).val / 200 * 200 + (i 1).val % 200 = (i 1).val := by omega
  show (if (X (ix2 (i 0) l)).toInt = (((i 1).val / 200 * 200 + (i 1).val % 200 : ℕ) : ℤ) then (1 : EReal) else 0) = _
  rw [e]

/-- THE RESULT of the idealized kernel: what the reshape after the region leaves is the histogram of the ids. -/
theorem tail_eq (c : Dev nD) (hX : ∀ i, 0 ≤ (V (F := Ideal) m c main_arg0 i).toInt) :
    Pipeline.afterTail₀ cfgs (dats m) 0 (V0 m) [hostOps1] c main_v1 = hist (V (F := Ideal) m c main_arg0) := by
  unfold Pipeline.afterTail₀
  show StableHlo.after hostOps1 _ (Proc.devRef .tc main_v1) = _
  after_results
  funext i
  have h50 : (i 1).val < 50000 := (i 1).isLt
  have hq : (i 1).val / 200 < 250 := by omega
  have hr : (i 1).val % 200 < 200 := Nat.mod_lt _ (by decide)
  show shapeCast S2048x50000
      (Pipeline.withArrays (cfgs 0).spec c (V0 m c) (fun w => (dats m 0 c).arrAt w (cfgs 0).N) (Proc.devRef .tc main_v0))
      shapeCasts_S2048x250x200_S2048x50000 i = _
  refine (shapeCast_apply _ shapeCasts_S2048x250x200_S2048x50000 i
    (ix3 (i 0) ⟨(i 1).val / 200, hq⟩ ⟨(i 1).val % 200, hr⟩) ?_).trans ?_
  · rw [Shape.rowMajor_val_three, Shape.rowMajor_val_two]
    show ((i 0).val * 250 + (i 1).val / 200) * 200 + (i 1).val % 200 = (i 0).val * 50000 + (i 1).val
    omega
  · exact (congrFun ((Pipeline.withArrays_arr spec0 launch0.win.arr_inj c _ _ 1).trans (final m c hX)) _).trans
      (histDigits_flat _ i hq hr)

/-! ## The run -/

/-- THE IDEALIZED KERNEL'S RUN: from ids that are all nonnegative, every weakly fair execution terminates with the
    result at the histogram of the ids and the ids unchanged. -/
theorem run (hpre : ∀ (c : Dev nD) i, 0 ≤ (m ((c.tc : Thread nD τ).loc main_arg0) i).toInt) :
    θ_run defs (onTc (τ := τ) (main (F := Ideal))) ⟨m, fun _ => 0, ρ⟩ fun r => ∀ c : Dev nD,
      r.2.mem ((c.tc : Thread nD τ).loc main_v1) = hist (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v1 (Pipeline.mem_restRefs_of main_v1 rfl (by decide))).trans (tail_eq m c (hpre c)),
        ((h c).1 0).trans (((dats m 0 c).arrAt_in 0 rfl _).trans ((A_eq m c 0).trans (V_main_arg0 m c)))⟩)
    (run_main m ρ)

end Cert.Hist.Region

end
-- ==== Proof.LibScatterAdd2.lean ====
/-
  A float scatter-add of scalar updates into a rank-2 array, read at one index over the extended reals.

  The operand is [A, B], the updates are [N, L] and the scatter indices are [N, L, 2]: update (n, l) carries a
  pair of signed integers, idx[n, l, 0] and idx[n, l, 1], naming the operand element it is added to; both operand
  axes are named by the pair, so an update has no window of its own. An update whose pair lies outside the operand
  on either axis is dropped. Over the extended reals the result at (a, b) is therefore the operand's element plus
  the sum, over all (n, l), of the update where the pair is exactly (a, b) and of zero elsewhere.
-/
import Idealize.ShloMosaic.PureOps.Ideal
import Idealize.ShloMosaic.Lib.ValueIdx

noncomputable section

open scoped BigOperators

namespace Cert.LibScatterAdd2

open Idealize.ShloMosaic Idealize.ShloMosaic.ValueIdx

variable {A B N L : Nat} (d : ScatterDims ⟨2, ![A, B]⟩ ⟨3, ![N, L, 2]⟩ ⟨2, ![N, L]⟩)

/-- Both operand axes are inserted, so no update has a window coordinate on either. -/
theorem window_eq (h2 : d.insertedWindowDims = [0, 1]) (j : (⟨2, ![N, L]⟩ : Shape).Idx) (a : Fin 2) :
    d.window j a = 0 := by
  unfold ScatterDims.window
  rw [dif_neg]
  intro ha
  have hm := (List.mem_filter.1 ha).2
  rw [h2] at hm
  match a with
  | ⟨0, _⟩ => simp at hm
  | ⟨1, _⟩ => simp at hm

/-- The start of update j on operand axis a is the scatter index idx[j 0, j 1, a], read signed. -/
theorem start_eq (h1 : d.updateWindowDims = []) (h3 : d.scatterDimsToOperandDims = [0, 1]) (h4 : d.indexVectorDim = 2)
    {w : Nat} (idx : IVec ⟨3, ![N, L, 2]⟩ w) (j : (⟨2, ![N, L]⟩ : Shape).Idx) (a : Fin 2) :
    d.start j idx a = (idx (ix3 (j 0) (j 1) a)).toInt := by
  obtain ⟨uw, iw, sd, iv, wf⟩ := d
  simp only at h1 h3 h4
  subst h1 h3 h4
  unfold ScatterDims.start
  have hmem : a ∈ ([0, 1] : List (Fin 2)) := by fin_cases a <;> decide
  rw [dif_pos hmem]
  congr 2
  funext b
  refine Fin.ext ?_
  fin_cases a <;> fin_cases b <;> rfl

/-- Update j lands at (a, b) exactly when its pair of scatter indices, read signed, is (a, b); a pair outside
    the operand lands nowhere. -/
theorem resultIdx?_eq_some_iff (h1 : d.updateWindowDims = []) (h2 : d.insertedWindowDims = [0, 1])
    (h3 : d.scatterDimsToOperandDims = [0, 1]) (h4 : d.indexVectorDim = 2)
    {w : Nat} (idx : IVec ⟨3, ![N, L, 2]⟩ w) (j : (⟨2, ![N, L]⟩ : Shape).Idx) (a : Fin A) (b : Fin B) :
    d.resultIdx? j idx = some (ix2 a b)
      ↔ (idx (ix3 (j 0) (j 1) 0)).toInt = (a.val : ℤ) ∧ (idx (ix3 (j 0) (j 1) 1)).toInt = (b.val : ℤ) := by
  have hs := start_eq d h1 h3 h4 idx j
  have hw := window_eq d h2 j
  have ha : ((a.val : ℕ) : ℤ) < ((A : ℕ) : ℤ) := by exact_mod_cast a.isLt
  have hb : ((b.val : ℕ) : ℤ) < ((B : ℕ) : ℤ) := by exact_mod_cast b.isLt
  unfold ScatterDims.resultIdx?
  split_ifs with h
  · rw [Option.some.injEq]
    constructor
    · intro he
      have h0 := h 0
      have h1' := h 1
      have hv0 : (d.start j idx 0 + (d.window j 0 : ℤ)).toNat = a.val := congrArg Fin.val (congrFun he 0)
      have hv1 : (d.start j idx 1 + (d.window j 1 : ℤ)).toNat = b.val := congrArg Fin.val (congrFun he 1)
      rw [hs 0, hw 0] at hv0 h0
      rw [hs 1, hw 1] at hv1 h1'
      constructor <;> omega
    · rintro ⟨e0, e1⟩
      funext c
      refine Fin.ext ?_
      match c with
      | ⟨0, _⟩ =>
        show (d.start j idx 0 + (d.window j 0 : ℤ)).toNat = a.val
        rw [hs 0, hw 0, e0]; simp
      | ⟨1, _⟩ =>
        show (d.start j idx 1 + (d.window j 1 : ℤ)).toNat = b.val
        rw [hs 1, hw 1, e1]; simp
  · constructor
    · intro he; cases he
    · rintro ⟨e0, e1⟩
      exfalso
      apply h
      intro c
      match c with
      | ⟨0, _⟩ =>
        show 0 ≤ d.start j idx 0 + (d.window j 0 : ℤ) ∧ d.start j idx 0 + (d.window j 0 : ℤ) < ((A : ℕ) : ℤ)
        rw [hs 0, hw 0, e0]
        exact ⟨by simp, by simpa using ha⟩
      | ⟨1, _⟩ =>
        show 0 ≤ d.start j idx 1 + (d.window j 1 : ℤ) ∧ d.start j idx 1 + (d.window j 1 : ℤ) < ((B : ℕ) : ℤ)
        rw [hs 1, hw 1, e1]
        exact ⟨by simp, by simpa using hb⟩

/-- THE SCATTER-ADD AT (a, b): the operand's element plus the sum over all update positions (n, l) of the update
    where its pair of indices is (a, b), zero elsewhere. -/
theorem hostScatterAdd_apply (h1 : d.updateWindowDims = []) (h2 : d.insertedWindowDims = [0, 1])
    (h3 : d.scatterDimsToOperandDims = [0, 1]) (h4 : d.indexVectorDim = 2)
    {w : Nat} (x : (⟨2, ![A, B]⟩ : Shape).Idx → EReal) (idx : IVec ⟨3, ![N, L, 2]⟩ w)
    (upd : (⟨2, ![N, L]⟩ : Shape).Idx → EReal) (a : Fin A) (b : Fin B) :
    Ideal.hostScatterAdd d x idx upd (ix2 a b)
      = x (ix2 a b) + ∑ n : Fin N, ∑ l : Fin L,
          if (idx (ix3 n l 0)).toInt = (a.val : ℤ) ∧ (idx (ix3 n l 1)).toInt = (b.val : ℤ) then upd (ix2 n l) else 0 := by
  unfold Ideal.hostScatterAdd
  rw [Finset.sum_filter, sum_idx2]
  congr 1
  refine Finset.sum_congr rfl fun n _ => Finset.sum_congr rfl fun l _ => ?_
  exact if_congr (resultIdx?_eq_some_iff d h1 h2 h3 h4 idx (ix2 n l) a b) rfl rfl

end Cert.LibScatterAdd2

end
-- ==== Proof.Reference.lean ====
/-
  The idealized reference's result as one function of its argument.

  The reference adds 1.0 into a zero [2048, 50000] array at the pairs (row, id) of every position (n, l): the row
  index is n itself and the id is x[n, l], each passed through the wrap that sends a negative index k to k + extent.
  A row number below 2048 and a nonnegative id are left alone by the wrap. An update lands at (b, v) exactly when its
  pair, read signed, is (b, v); the others, and those outside the array, add nothing. So entry (b, v) is the sum
  over all (n, l) of 1 where n = b and x[n, l] = v: only row b contributes, and the entry is the number of positions
  l of row b with x[b, l] = v.
-/
import proofs.«417147_j16458314678493_3_alg».proof.Proof.Gen.ReferenceIdeal.Read
import proofs.«417147_j16458314678493_3_alg».proof.Proof.LibScatterAdd2
import proofs.«417147_j16458314678493_3_alg».proof.Proof.Count
import Idealize.ShloMosaic.Lib.Pipeline.Value
import Idealize.ShloMosaic.PureOps.Ideal.Laws

noncomputable section

open scoped BigOperators

namespace Cert.Hist.Ref

open Idealize.ShloMosaic Idealize.ShloMosaic.ValueIdx
open Cert.ReferenceIdeal Cert.ReferenceIdeal.Gen Cert.ReferenceIdeal.Read Cert.Hist Cert.LibWordDiv

/-! ## The two components of an update's index -/

/-- The row component at position (n, l) is the row number n: the wrap leaves it alone. -/
theorem row_apply (n : Fin 2048) (l : Fin 200) : val_main_v8 (F := Ideal) (ix2 n l) = BitVec.ofNat 32 n.val := by
  rw [val_main_v8_apply, val_main_v5_apply, val_main_v7_apply, val_main_v2_apply, val_main_v1_apply, val_main_v0_apply,
    val_main_v4_apply, val_main_c_apply, val_main_v6_apply, val_main_c_0_apply]
  show Scalar.select (IntOp.cmpi .slt (BitVec.ofNat 32 n.val) 0#32) (IntOp.addi (BitVec.ofNat 32 n.val) 2048#32)
    (BitVec.ofNat 32 n.val) = BitVec.ofNat 32 n.val
  refine wrap_word 2048#32 ?_
  rw [BitVec.toNat_ofNat]
  have := n.isLt
  omega

/-- The id component at position (n, l) is x[n, l] when that is nonnegative: the wrap leaves it alone. -/
theorem col_apply (x0 : S2048x200.Idx → BitVec 32) (n : Fin 2048) (l : Fin 200) (hx : 0 ≤ (x0 (ix2 n l)).toInt) :
    val_main_v13 (F := Ideal) x0 (ix2 n l) = x0 (ix2 n l) := by
  rw [val_main_v13_apply, val_main_v10_apply, val_main_v12_apply, val_main_v9_apply, val_main_c_1_apply,
    val_main_v11_apply, val_main_c_2_apply]
  exact wrap_word 50000#32 (toNat_lt_of_nonneg hx)

/-- Component 0 of the index pair at (n, l) is the row component. -/
theorem idx0_apply (x0 : S2048x200.Idx → BitVec 32) (n : Fin 2048) (l : Fin 200) :
    val_main_v16 (F := Ideal) x0 (ix3 n l (0 : Fin 2)) = val_main_v8 (F := Ideal) (ix2 n l) := by
  unfold val_main_v16
  refine (concatenate_pair_apply_left (s₁ := S2048x200x1) (s₂ := S2048x200x1) _ _ _ _ (ix3 n l (0 : Fin 2)) rfl (ix3 n l (0 : Fin 1)) (fun b => ?_)).trans ?_
  · match b with
    | ⟨0, _⟩ => rfl
    | ⟨1, _⟩ => rfl
    | ⟨2, _⟩ => rfl
  · rw [val_main_v14_apply]
    refine congrArg _ (funext fun a => ?_)
    match a with
    | ⟨0, _⟩ => rfl
    | ⟨1, _⟩ => rfl

/-- Component 1 of the index pair at (n, l) is the id component. -/
theorem idx1_apply (x0 : S2048x200.Idx → BitVec 32) (n : Fin 2048) (l : Fin 200) :
    val_main_v16 (F := Ideal) x0 (ix3 n l (1 : Fin 2)) = val_main_v13 (F := Ideal) x0 (ix2 n l) := by
  unfold val_main_v16
  refine (concatenate_pair_apply_right (s₁ := S2048x200x1) (s₂ := S2048x200x1) _ _ _ _ (ix3 n l (1 : Fin 2)) rfl rfl (ix3 n l (0 : Fin 1)) (fun b hb => ?_) ?_).trans ?_
  · match b, hb with
    | ⟨0, _⟩, _ => rfl
    | ⟨1, _⟩, _ => rfl
    | ⟨2, _⟩, hb => exact absurd rfl hb
  · rfl
  · rw [val_main_v15_apply]
    refine congrArg _ (funext fun a => ?_)
    match a with
    | ⟨0, _⟩ => rfl
    | ⟨1, _⟩ => rfl

/-- Every update is the number 1. -/
theorem upd_apply (i : S2048x200.Idx) : val_main_v17 (F := Ideal) i = 1 := by
  rw [val_main_v17_apply, val_main_cst_3_apply]
  exact IdealRules.sign_bit.ideal_onePat .f32

/-- The array the updates are added into is zero. -/
theorem base_apply (i : S2048x50000.Idx) : val_main_v3 (F := Ideal) i = 0 := by
  rw [val_main_v3_apply, val_main_cst_apply]
  exact Ideal.ofBits_zero_f32

/-! ## The reference is the histogram -/

/-- THE REFERENCE'S RESULT on nonnegative ids is the histogram of the ids. -/
theorem result_eq (x0 : S2048x200.Idx → BitVec 32) (hx : ∀ i, 0 ≤ (x0 i).toInt) :
    val_main_v18 (F := Ideal) x0 = hist x0 := by
  funext i
  obtain ⟨b, v, rfl⟩ : ∃ (b : Fin 2048) (v : Fin 50000), i = ix2 b v := ⟨i 0, i 1, eq_ix2 i⟩
  unfold val_main_v18
  show Ideal.hostScatterAdd scatter_S2048x50000_S2048x200x2_S2048x200_n_01_01_2 (val_main_v3 (F := Ideal))
    (val_main_v16 (F := Ideal) x0) (val_main_v17 (F := Ideal)) (ix2 b v) = _
  rw [LibScatterAdd2.hostScatterAdd_apply _ rfl rfl rfl rfl, base_apply, zero_add]
  unfold hist
  rw [Finset.sum_eq_single b]
  · refine Finset.sum_congr rfl fun l _ => ?_
    rw [idx0_apply, idx1_apply, row_apply, col_apply x0 b l (hx _), upd_apply, toInt_ofNat_lt b.val (by have := b.isLt; omega)]
    simp
  · intro n _ hn
    refine Finset.sum_eq_zero fun l _ => ?_
    rw [idx0_apply, row_apply, toInt_ofNat_lt n.val (by have := n.isLt; omega)]
    have hne : ¬ ((n.val : ℤ) = (b.val : ℤ)) := fun e => hn (Fin.ext (by exact_mod_cast e))
    rw [if_neg (fun h => hne h.1)]
  · intro hb
    exact absurd (Finset.mem_univ b) hb

end Cert.Hist.Ref

end
-- ==== Proof.lean ====
/-
  A histogram of token ids, computed two ways.

  Both programs take a [2048, 200] array of integer ids and return a [2048, 50000] array whose entry (b, v) is the
  number of positions l with x[b, l] = v. The reference adds 1.0 at (b, x[b, l]) for every position. The kernel
  writes an id as hi * 200 + lo, builds the one-hot rows of hi (250 lanes) and of lo (200 lanes), contracts them
  over the positions on the matrix unit, so that entry (b, hi, lo) counts the ids with those two digits, and
  flattens (hi, lo) to hi * 200 + lo.

  The two agree on ids that are nonnegative: for such an id the two digits are the unsigned quotient and remainder
  by 200, and the pair of one-hot entries at (h, r) is 1 exactly when the id is h * 200 + r. (A negative id is
  outside the vocabulary axis; the reference wraps it to id + 50000 and counts it there, the kernel's digits match
  no lane, so the precondition asks every id to be at least zero.) Ids of 50000 and more are dropped by both.

  The frames of the two kernel programs are the generated ones; the reference's frame is its generated run with the
  result dropped; nothing was rewritten when the kernel was idealized, so there is nothing to preserve. The value
  claim states both runs at the same histogram of the ids.
-/
import proofs.«417147_j16458314678493_3_alg».proof.Defs
import proofs.«417147_j16458314678493_3_alg».proof.Proof.Gen.Kernel
import proofs.«417147_j16458314678493_3_alg».proof.Proof.Gen.Kernel.Skeleton
import proofs.«417147_j16458314678493_3_alg».proof.Proof.Gen.Kernel.Launch
import proofs.«417147_j16458314678493_3_alg».proof.Proof.Gen.Kernel.Points
import proofs.«417147_j16458314678493_3_alg».proof.Proof.Gen.Kernel.Frame
import proofs.«417147_j16458314678493_3_alg».proof.Proof.Gen.KernelIdeal
import proofs.«417147_j16458314678493_3_alg».proof.Proof.Gen.KernelIdeal.Skeleton
import proofs.«417147_j16458314678493_3_alg».proof.Proof.Gen.KernelIdeal.Launch
import proofs.«417147_j16458314678493_3_alg».proof.Proof.Gen.KernelIdeal.Points
import proofs.«417147_j16458314678493_3_alg».proof.Proof.Gen.KernelIdeal.Frame
import proofs.«417147_j16458314678493_3_alg».proof.Proof.Gen.ReferenceIdeal
import proofs.«417147_j16458314678493_3_alg».proof.Proof.Gen.ReferenceIdeal.Run
import proofs.«417147_j16458314678493_3_alg».proof.Proof.Gen.ReferenceIdeal.Read
import proofs.«417147_j16458314678493_3_alg».proof.Proof.Gen.Pre_any_inputs
import proofs.«417147_j16458314678493_3_alg».proof.Proof.Domain
import proofs.«417147_j16458314678493_3_alg».proof.Proof.Region
import proofs.«417147_j16458314678493_3_alg».proof.Proof.Reference
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_any_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.Value.run (F := Ideal) m ρ),
  trivial,
  fun m ρ m' ρ' hpre hagree =>
    ⟨fun c => Cert.Hist.hist (m ((c.tc : Thread Cert.KernelIdeal.nD Cert.KernelIdeal.τ).loc Cert.KernelIdeal.main_arg0)),
      Cert.Hist.Region.run m ρ (fun c i => Cert.Hist.nonneg_of_pre _ (hpre c) i),
      (θ_run Cert.ReferenceIdeal.defs _ _).mono (fun _ h c =>
          ⟨(h c).1.trans ((Cert.ReferenceIdeal.Read.val_main_v18_eq _).trans
              ((Cert.Hist.Ref.result_eq _ (fun i => by
                  rw [hagree c]; exact Cert.Hist.nonneg_of_pre _ (hpre c) i)).trans
                (congrArg Cert.Hist.hist (hagree c)))),
            (h c).2⟩)
        (Cert.ReferenceIdeal.Value.run (F := Ideal) m' ρ')⟩⟩

end Cert.Proof

end
